-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4x512x512 : Shape := ⟨3, ![4, 512, 512]⟩
abbrev S7x16 : Shape := ⟨2, ![7, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S7x16 : S_.BroadcastsInDim S7x16 (![] : Fin 0 → Fin S7x16.rank)
  reducesTo_S7x16_S_d0_1 : S7x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S16x3 .f32) (main_v50 : FVec F S16x3 .f32) : IVec S_ 1 :=
  let main_v51 : IVec S16x3 1 := cmpf .olt main_v49 main_v50
  let main_c_19 : IVec S_ 1 := constantI S_ 1 1#1
  let main_v52 : IVec S_ 1 := (fun x v => Host.reduce IntOp.andi x v reducesTo_S16x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S16 .f32) (main_arg8 : FVec F S16x16 .f32) (main_arg9 : FVec F S16 .f32) (main_arg10 : FVec F S16x3 .f32) (main_arg11 : FVec F S3 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x3 .f32 := Host.absf main_arg10
  let main_cst_18 : FVec F S_ .f32 := constant S_ .f32 0x7F800000#32
  let main_v50 : FVec F S16x3 .f32 := broadcastInDim S16x3 ![] bcast_S_S16x3 main_cst_18
  fn_part3 (F := F) main_arg11 main_v48 main_v49 main_v50

def fn_part1 {F : FTy → Type} [FloatOps F] (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S16x3 .f32) (main_arg11 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4000000x3 .f32) (main_arg1 : FVec F S4x512x512 .f32) (main_arg2 : FVec F S7x16 .f32) (main_arg3 : FVec F S16 .f32) (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S16x3 .f32) (main_arg11 : FVec F S3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S7x16 .f32 := Host.absf main_arg2
  let main_cst_2 : FVec F S_ .f32 := constant S_ .f32 0x7F800000#32
  let main_v10 : FVec F S7x16 .f32 := broadcastInDim S7x16 ![] bcast_S_S7x16 main_cst_2
  let main_v11 : IVec S7x16 1 := cmpf .olt main_v9 main_v10
  let main_c_3 : IVec S_ 1 := constantI S_ 1 1#1
  let main_v12 : IVec S_ 1 := (fun x v => Host.reduce IntOp.andi x v reducesTo_S7x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_v13 main_v16
-- ==== Kernel.lean ====
abbrev S4000000x3 : Shape := ⟨2, ![4000000, 3]⟩
abbrev S4x512x512 : Shape := ⟨3, ![4, 512, 512]⟩
abbrev S7x16 : Shape := ⟨2, ![7, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩
abbrev S4x4000000 : Shape := ⟨2, ![4, 4000000]⟩
abbrev S1x4000000 : Shape := ⟨2, ![1, 4000000]⟩
abbrev S4000000x4 : Shape := ⟨2, ![4000000, 4]⟩
abbrev S4000000x7 : Shape := ⟨2, ![4000000, 7]⟩
abbrev S1x16 : Shape := ⟨2, ![1, 16]⟩
abbrev S1x3 : Shape := ⟨2, ![1, 3]⟩
abbrev S50000x7 : Shape := ⟨2, ![50000, 7]⟩
abbrev S50000x3 : Shape := ⟨2, ![50000, 3]⟩
abbrev S50000x16 : Shape := ⟨2, ![50000, 16]⟩

abbrev nBuf : Space → Nat
  | .hbm => 198
  | .vmem => 14
  | .smem => 0
  | _ => 0

abbrev hbmTy0_0 (i : Nat) : BufTy := match i % 128 with
  | 0 => ⟨S4000000x3, .f32⟩
  | 1 => ⟨S4x512x512, .f32⟩
  | 2 => ⟨S7x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S16x3, .f32⟩
  | 11 => ⟨S3, .f32⟩
  | 12 => ⟨S4000000x2, .f32⟩
  | 13 => ⟨S_, .f32⟩
  | 14 => ⟨S4000000x2, .f32⟩
  | 15 => ⟨S4000000x2, .f32⟩
  | 16 => ⟨S_, .f32⟩
  | 17 => ⟨S4000000x2, .f32⟩
  | 18 => ⟨S4000000x2, .f32⟩
  | 19 => ⟨S4000000x1, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S4000000, .f32⟩
  | 32 => ⟨S4000000, .f32⟩
  | 33 => ⟨S_, .f32⟩
  | 34 => ⟨S_, .f32⟩
  | 35 => ⟨S_, .f32⟩
  | 36 => ⟨S4000000, .f32⟩
  | 37 => ⟨S4000000, .f32⟩
  | 38 => ⟨S_, .f32⟩
  | 39 => ⟨S4000000, .f32⟩
  | 40 => ⟨S4000000, .f32⟩
  | 41 => ⟨S4000000x1, .f32⟩
  | 42 => ⟨S4000000, .f32⟩
  | 43 => ⟨S_, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S_, .f32⟩
  | 57 => ⟨S_, .f32⟩
  | 58 => ⟨S4000000, .f32⟩
  | 59 => ⟨S4000000, .f32⟩
  | 60 => ⟨S_, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .i32⟩
  | 68 => ⟨S4000000, .i32⟩
  | 69 => ⟨S_, .i32⟩
  | 70 => ⟨S4000000, .i32⟩
  | 71 => ⟨S4000000, .i32⟩
  | 72 => ⟨S_, .i32⟩
  | 73 => ⟨S4000000, .i32⟩
  | 74 => ⟨S4000000, .i32⟩
  | 75 => ⟨S_, .i32⟩
  | 76 => ⟨S4000000, .i32⟩
  | 77 => ⟨S4000000, .i32⟩
  | 78 => ⟨S_, .i32⟩
  | 79 => ⟨S4000000, .i32⟩
  | 80 => ⟨S4000000, .i32⟩
  | 81 => ⟨S_, .i32⟩
  | 82 => ⟨S4000000, .i32⟩
  | 83 => ⟨S4000000, .i1⟩
  | 84 => ⟨S_, .i32⟩
  | 85 => ⟨S4000000, .i32⟩
  | 86 => ⟨S4000000, .i32⟩
  | 87 => ⟨S4000000, .i32⟩
  | 88 => ⟨S_, .i32⟩
  | 89 => ⟨S4000000, .i32⟩
  | 90 => ⟨S4000000, .i1⟩
  | 91 => ⟨S_, .i32⟩
  | 92 => ⟨S4000000, .i32⟩
  | 93 => ⟨S4000000, .i32⟩
  | 94 => ⟨S4000000, .i32⟩
  | 95 => ⟨S4000000x1, .i32⟩
  | 96 => ⟨S4000000x1, .i32⟩
  | 97 => ⟨S4000000x2, .i32⟩
  | 98 => ⟨S4x4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000x1, .i32⟩
  | 115 => ⟨S4000000x2, .i32⟩
  | 116 => ⟨S4x4000000, .f32⟩
  | 117 => ⟨S_, .i32⟩
  | 118 => ⟨S4000000, .i32⟩
  | 119 => ⟨S4000000, .i1⟩
  | 120 => ⟨S_, .i32⟩
  | 121 => ⟨S4000000, .i32⟩
  | 122 => ⟨S4000000, .i32⟩
  | 123 => ⟨S4000000, .i32⟩
  | 124 => ⟨S_, .i32⟩
  | 125 => ⟨S4000000, .i32⟩
  | 126 => ⟨S4000000, .i1⟩
  | 127 => ⟨S_, .i32⟩
  | _ => ⟨S4000000x3, .f32⟩

abbrev hbmTy0_1 (i : Nat) : BufTy := match i % 128 with
  | 0 => ⟨S4000000, .i32⟩
  | 1 => ⟨S4000000, .i32⟩
  | 2 => ⟨S4000000, .i32⟩
  | 3 => ⟨S4000000x1, .i32⟩
  | 4 => ⟨S4000000x1, .i32⟩
  | 5 => ⟨S4000000x2, .i32⟩
  | 6 => ⟨S4x4000000, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x1, .i32⟩
  | 23 => ⟨S4000000x2, .i32⟩
  | 24 => ⟨S4x4000000, .f32⟩
  | 25 => ⟨S_, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S4000000, .f32⟩
  | 32 => ⟨S1x4000000, .f32⟩
  | 33 => ⟨S4x4000000, .f32⟩
  | 34 => ⟨S4x4000000, .f32⟩
  | 35 => ⟨S_, .f32⟩
  | 36 => ⟨S4000000, .f32⟩
  | 37 => ⟨S4000000, .f32⟩
  | 38 => ⟨S4000000, .f32⟩
  | 39 => ⟨S1x4000000, .f32⟩
  | 40 => ⟨S4x4000000, .f32⟩
  | 41 => ⟨S4x4000000, .f32⟩
  | 42 => ⟨S4x4000000, .f32⟩
  | 43 => ⟨S_, .f32⟩
  | 44 => ⟨S4000000, .f32⟩
  | 45 => ⟨S4000000, .f32⟩
  | 46 => ⟨S4000000, .f32⟩
  | 47 => ⟨S1x4000000, .f32⟩
  | 48 => ⟨S4x4000000, .f32⟩
  | 49 => ⟨S4x4000000, .f32⟩
  | 50 => ⟨S4x4000000, .f32⟩
  | 51 => ⟨S4000000, .f32⟩
  | 52 => ⟨S1x4000000, .f32⟩
  | 53 => ⟨S4x4000000, .f32⟩
  | 54 => ⟨S4x4000000, .f32⟩
  | 55 => ⟨S4x4000000, .f32⟩
  | 56 => ⟨S4000000x4, .f32⟩
  | 57 => ⟨S4000000x7, .f32⟩
  | 58 => ⟨S4000000x7, .bf16⟩
  | 59 => ⟨S7x16, .bf16⟩
  | 60 => ⟨S16x16, .bf16⟩
  | 61 => ⟨S16x16, .bf16⟩
  | 62 => ⟨S16x16, .bf16⟩
  | 63 => ⟨S16x3, .bf16⟩
  | 64 => ⟨S1x16, .f32⟩
  | 65 => ⟨S1x16, .f32⟩
  | 66 => ⟨S1x16, .f32⟩
  | 67 => ⟨S1x16, .f32⟩
  | 68 => ⟨S1x3, .f32⟩
  | 69 => ⟨S4000000x3, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | .local _ .vmem, ⟨0, _⟩ => ⟨S50000x7, .bf16⟩
  | .local _ .vmem, ⟨1, _⟩ => ⟨S50000x7, .bf16⟩
  | .local _ .vmem, ⟨2, _⟩ => ⟨S7x16, .bf16⟩
  | .local _ .vmem, ⟨3, _⟩ => ⟨S1x16, .f32⟩
  | .local _ .vmem, ⟨4, _⟩ => ⟨S16x16, .bf16⟩
  | .local _ .vmem, ⟨5, _⟩ => ⟨S1x16, .f32⟩
  | .local _ .vmem, ⟨6, _⟩ => ⟨S16x16, .bf16⟩
  | .local _ .vmem, ⟨7, _⟩ => ⟨S1x16, .f32⟩
  | .local _ .vmem, ⟨8, _⟩ => ⟨S16x16, .bf16⟩
  | .local _ .vmem, ⟨9, _⟩ => ⟨S1x16, .f32⟩
  | .local _ .vmem, ⟨10, _⟩ => ⟨S16x3, .bf16⟩
  | .local _ .vmem, ⟨11, _⟩ => ⟨S1x3, .f32⟩
  | .local _ .vmem, ⟨12, _⟩ => ⟨S50000x3, .f32⟩
  | .local _ .vmem, ⟨13, _⟩ => ⟨S50000x3, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_7 : Ref sig .tc := ⟨.hbm, 43, rfl⟩
abbrev main_v18 : Ref sig .tc := ⟨.hbm, 44, rfl⟩
abbrev main_v19 : Ref sig .tc := ⟨.hbm, 45, rfl⟩
abbrev main_cst_8 : Ref sig .tc := ⟨.hbm, 46, rfl⟩
abbrev main_v20 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_cst_10 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c : Ref sig .tc := ⟨.hbm, 69, rfl⟩
abbrev main_v33 : Ref sig .tc := ⟨.hbm, 70, rfl⟩
abbrev main_v34 : Ref sig .tc := ⟨.hbm, 71, rfl⟩
abbrev main_c_13 : Ref sig .tc := ⟨.hbm, 72, rfl⟩
abbrev main_v35 : Ref sig .tc := ⟨.hbm, 73, rfl⟩
abbrev main_v36 : Ref sig .tc := ⟨.hbm, 74, rfl⟩
abbrev main_c_14 : Ref sig .tc := ⟨.hbm, 75, rfl⟩
abbrev main_v37 : Ref sig .tc := ⟨.hbm, 76, rfl⟩
abbrev main_v38 : Ref sig .tc := ⟨.hbm, 77, rfl⟩
abbrev main_c_15 : Ref sig .tc := ⟨.hbm, 78, rfl⟩
abbrev main_v39 : Ref sig .tc := ⟨.hbm, 79, rfl⟩
abbrev main_v40 : Ref sig .tc := ⟨.hbm, 80, rfl⟩
abbrev main_c_16 : Ref sig .tc := ⟨.hbm, 81, rfl⟩
abbrev main_v41 : Ref sig .tc := ⟨.hbm, 82, rfl⟩
abbrev main_v42 : Ref sig .tc := ⟨.hbm, 83, rfl⟩
abbrev main_c_17 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_18 : Ref sig .tc := ⟨.hbm, 88, rfl⟩
abbrev main_v46 : Ref sig .tc := ⟨.hbm, 89, rfl⟩
abbrev main_v47 : Ref sig .tc := ⟨.hbm, 90, rfl⟩
abbrev main_c_19 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_c_21 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_22 : Ref sig .tc := ⟨.hbm, 106, rfl⟩
abbrev main_v60 : Ref sig .tc := ⟨.hbm, 107, rfl⟩
abbrev main_v61 : Ref sig .tc := ⟨.hbm, 108, rfl⟩
abbrev main_c_23 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_24 : Ref sig .tc := ⟨.hbm, 117, rfl⟩
abbrev main_v69 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_26 : Ref sig .tc := ⟨.hbm, 124, rfl⟩
abbrev main_v74 : Ref sig .tc := ⟨.hbm, 125, rfl⟩
abbrev main_v75 : Ref sig .tc := ⟨.hbm, 126, rfl⟩
abbrev main_c_27 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_28 : Ref sig .tc := ⟨.hbm, 135, rfl⟩
abbrev main_v83 : Ref sig .tc := ⟨.hbm, 136, rfl⟩
abbrev main_v84 : Ref sig .tc := ⟨.hbm, 137, rfl⟩
abbrev main_c_29 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_30 : Ref sig .tc := ⟨.hbm, 142, rfl⟩
abbrev main_v88 : Ref sig .tc := ⟨.hbm, 143, rfl⟩
abbrev main_v89 : Ref sig .tc := ⟨.hbm, 144, rfl⟩
abbrev main_c_31 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_32 : Ref sig .tc := ⟨.hbm, 153, rfl⟩
abbrev main_v97 : Ref sig .tc := ⟨.hbm, 154, rfl⟩
abbrev main_v98 : Ref sig .tc := ⟨.hbm, 155, rfl⟩
abbrev main_cst_33 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_34 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_35 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S50000x7 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S50000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S4000000x3_S4000000x2_0_0 : S4000000x3.Slices ![0, 0] S4000000x2
  bcast_S_S4000000x2 : S_.BroadcastsInDim S4000000x2 (![] : Fin 0 → Fin S4000000x2.rank)
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S4000000_S1x4000000_1 : S4000000.BroadcastsInDim S1x4000000 (![1] : Fin 1 → Fin S1x4000000.rank)
  bcast_S1x4000000_S4x4000000_0_1 : S1x4000000.BroadcastsInDim S4x4000000 (![0, 1] : Fin 2 → Fin S4x4000000.rank)
  transposes_S4x4000000_S4000000x4_1_0 : S4x4000000.Transposes [1, 0] S4000000x4
  concatenates_S4000000x3_S4000000x4_S4000000x7_d1 : Shape.Concatenates [S4000000x3, S4000000x4] S4000000x7 1
  bitsLt_bf16_f32 : FTy.bits .bf16 < FTy.bits .f32
  shapeCasts_S16_S1x16 : S16.ShapeCasts S1x16
  shapeCasts_S3_S1x3 : S3.ShapeCasts S1x3
  inb_S50000x7_S50000x7_0_0 : ∀ a, (![0, 0] : Fin 2 → Nat) a + S50000x7.size a ≤ S50000x7.size a
  h_S50000x7 : 0 < S50000x7.numel
  shapeCasts_S50000x7_S50000x7 : S50000x7.ShapeCasts S50000x7
  inb_S7x16_S7x16_0_0 : ∀ a, (![0, 0] : Fin 2 → Nat) a + S7x16.size a ≤ S7x16.size a
  h_S7x16 : 0 < S7x16.numel
  shapeCasts_S7x16_S7x16 : S7x16.ShapeCasts S7x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S50000x16 : S1x16.Broadcasts S50000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S50000x3 : S1x3.Broadcasts S50000x3
  inb_S50000x3_S50000x3_0_0 : ∀ a, (![0, 0] : Fin 2 → Nat) a + S50000x3.size a ≤ S50000x3.size a
  h_S50000x3 : 0 < S50000x3.numel
  gather_S4x512x512_S4000000x2_S4x4000000_0_12_n_n_12_1_411_wf : GatherDims.WF S4x512x512 S4000000x2 S4x4000000 [0] [1, 2] [] [1, 2] [] 1 ![4, 1, 1]
  dot_S50000x7_S7x16_S50000x16_1_0_0_1_n_n_wf : DotDims.WF S50000x7 S7x16 S50000x16 [1] [0] [0] [1] [] []
  dot_S50000x16_S16x16_S50000x16_1_0_0_1_n_n_wf : DotDims.WF S50000x16 S16x16 S50000x16 [1] [0] [0] [1] [] []
  dot_S50000x16_S16x3_S50000x3_1_0_0_1_n_n_wf : DotDims.WF S50000x16 S16x3 S50000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x7.size a ≤ S4000000x7.size a
  hwx0_0 : ∀ i : grid0.Coords, EltTy.bits .bf16 = 32 ∨ (Rect.block (s := S4000000x7) S50000x7.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x16.size a ≤ S7x16.size a
  hwx0_1 : ∀ i : grid0.Coords, EltTy.bits .bf16 = 32 ∨ (Rect.block (s := S7x16) S7x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .bf16 = 32 ∨ (Rect.block (s := S16x16) S16x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .bf16 = 32 ∨ (Rect.block (s := S16x16) S16x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .bf16 = 32 ∨ (Rect.block (s := S16x16) S16x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x3.size a ≤ S16x3.size a
  hwx0_9 : ∀ i : grid0.Coords, EltTy.bits .bf16 = 32 ∨ (Rect.block (s := S16x3) S16x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S50000x3.size a ≤ S4000000x3.size a
  hwx0_11 : ∀ i : grid0.Coords, EltTy.bits .f32 = 32 ∨ (Rect.block (s := S4000000x3) S50000x3.size (cc0_transform_11 i) (hinb0_11 i)).WholeWords (EltTy.packing .f32)

variable [Facts₀]

def gather_S4x512x512_S4000000x2_S4x4000000_0_12_n_n_12_1_411 : GatherDims S4x512x512 S4000000x2 S4x4000000 where
  offsetDims := [0]
  collapsedSliceDims := [1, 2]
  operandBatchingDims := []
  startIndicesBatchingDims := []
  startIndexMap := [1, 2]
  indexVectorDim := 1
  sliceSizes := ![4, 1, 1]
  wf := gather_S4x512x512_S4000000x2_S4x4000000_0_12_n_n_12_1_411_wf
def dot_S50000x7_S7x16_S50000x16_1_0_0_1_n_n : DotDims S50000x7 S7x16 S50000x16 where
  lhsContracting := [1]
  rhsContracting := [0]
  lhsNonContracting := [0]
  rhsNonContracting := [1]
  lhsBatch := []
  rhsBatch := []
  wf := dot_S50000x7_S7x16_S50000x16_1_0_0_1_n_n_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf
def dot_S50000x16_S16x3_S50000x3_1_0_0_1_n_n : DotDims S50000x16 S16x3 S50000x3 where
  lhsContracting := [1]
  rhsContracting := [0]
  lhsNonContracting := [0]
  rhsNonContracting := [1]
  lhsBatch := []
  rhsBatch := []
  wf := dot_S50000x16_S16x3_S50000x3_1_0_0_1_n_n_wf

abbrev win0_0 : Pipeline.Window sig grid0 :=
  Pipeline.Window.ofSpec (Memref.whole main_v126) S50000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v127) S7x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v132) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v128) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v133) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v129) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v134) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v130) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v135) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v131) S16x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v136) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v137) S50000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4x512x512 : Shape := ⟨3, ![4, 512, 512]⟩
abbrev S7x16 : Shape := ⟨2, ![7, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩
abbrev S4x4000000 : Shape := ⟨2, ![4, 4000000]⟩
abbrev S1x4000000 : Shape := ⟨2, ![1, 4000000]⟩
abbrev S4000000x4 : Shape := ⟨2, ![4000000, 4]⟩
abbrev S4000000x7 : Shape := ⟨2, ![4000000, 7]⟩
abbrev S4000000x16 : Shape := ⟨2, ![4000000, 16]⟩
abbrev S1x16 : Shape := ⟨2, ![1, 16]⟩
abbrev S1x3 : Shape := ⟨2, ![1, 3]⟩

abbrev nBuf : Space → Nat
  | .hbm => 218
  | .vmem => 0
  | .smem => 0
  | _ => 0

abbrev hbmTy0_0 (i : Nat) : BufTy := match i % 128 with
  | 0 => ⟨S4000000x3, .f32⟩
  | 1 => ⟨S4x512x512, .f32⟩
  | 2 => ⟨S7x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S16x3, .f32⟩
  | 11 => ⟨S3, .f32⟩
  | 12 => ⟨S4000000x2, .f32⟩
  | 13 => ⟨S_, .f32⟩
  | 14 => ⟨S4000000x2, .f32⟩
  | 15 => ⟨S4000000x2, .f32⟩
  | 16 => ⟨S_, .f32⟩
  | 17 => ⟨S4000000x2, .f32⟩
  | 18 => ⟨S4000000x2, .f32⟩
  | 19 => ⟨S4000000x1, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S4000000, .f32⟩
  | 32 => ⟨S4000000, .f32⟩
  | 33 => ⟨S_, .f32⟩
  | 34 => ⟨S_, .f32⟩
  | 35 => ⟨S_, .f32⟩
  | 36 => ⟨S4000000, .f32⟩
  | 37 => ⟨S4000000, .f32⟩
  | 38 => ⟨S_, .f32⟩
  | 39 => ⟨S4000000, .f32⟩
  | 40 => ⟨S4000000, .f32⟩
  | 41 => ⟨S4000000x1, .f32⟩
  | 42 => ⟨S4000000, .f32⟩
  | 43 => ⟨S_, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S_, .f32⟩
  | 57 => ⟨S_, .f32⟩
  | 58 => ⟨S4000000, .f32⟩
  | 59 => ⟨S4000000, .f32⟩
  | 60 => ⟨S_, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .i32⟩
  | 68 => ⟨S4000000, .i32⟩
  | 69 => ⟨S_, .i32⟩
  | 70 => ⟨S4000000, .i32⟩
  | 71 => ⟨S4000000, .i32⟩
  | 72 => ⟨S_, .i32⟩
  | 73 => ⟨S4000000, .i32⟩
  | 74 => ⟨S4000000, .i32⟩
  | 75 => ⟨S_, .i32⟩
  | 76 => ⟨S4000000, .i32⟩
  | 77 => ⟨S4000000, .i32⟩
  | 78 => ⟨S_, .i32⟩
  | 79 => ⟨S4000000, .i32⟩
  | 80 => ⟨S4000000, .i32⟩
  | 81 => ⟨S_, .i32⟩
  | 82 => ⟨S4000000, .i32⟩
  | 83 => ⟨S4000000, .i1⟩
  | 84 => ⟨S_, .i32⟩
  | 85 => ⟨S4000000, .i32⟩
  | 86 => ⟨S4000000, .i32⟩
  | 87 => ⟨S4000000, .i32⟩
  | 88 => ⟨S_, .i32⟩
  | 89 => ⟨S4000000, .i32⟩
  | 90 => ⟨S4000000, .i1⟩
  | 91 => ⟨S_, .i32⟩
  | 92 => ⟨S4000000, .i32⟩
  | 93 => ⟨S4000000, .i32⟩
  | 94 => ⟨S4000000, .i32⟩
  | 95 => ⟨S4000000x1, .i32⟩
  | 96 => ⟨S4000000x1, .i32⟩
  | 97 => ⟨S4000000x2, .i32⟩
  | 98 => ⟨S4x4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000x1, .i32⟩
  | 115 => ⟨S4000000x2, .i32⟩
  | 116 => ⟨S4x4000000, .f32⟩
  | 117 => ⟨S_, .i32⟩
  | 118 => ⟨S4000000, .i32⟩
  | 119 => ⟨S4000000, .i1⟩
  | 120 => ⟨S_, .i32⟩
  | 121 => ⟨S4000000, .i32⟩
  | 122 => ⟨S4000000, .i32⟩
  | 123 => ⟨S4000000, .i32⟩
  | 124 => ⟨S_, .i32⟩
  | 125 => ⟨S4000000, .i32⟩
  | 126 => ⟨S4000000, .i1⟩
  | 127 => ⟨S_, .i32⟩
  | _ => ⟨S4000000x3, .f32⟩

abbrev hbmTy0_1 (i : Nat) : BufTy := match i % 128 with
  | 0 => ⟨S4000000, .i32⟩
  | 1 => ⟨S4000000, .i32⟩
  | 2 => ⟨S4000000, .i32⟩
  | 3 => ⟨S4000000x1, .i32⟩
  | 4 => ⟨S4000000x1, .i32⟩
  | 5 => ⟨S4000000x2, .i32⟩
  | 6 => ⟨S4x4000000, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x1, .i32⟩
  | 23 => ⟨S4000000x2, .i32⟩
  | 24 => ⟨S4x4000000, .f32⟩
  | 25 => ⟨S_, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S4000000, .f32⟩
  | 32 => ⟨S1x4000000, .f32⟩
  | 33 => ⟨S4x4000000, .f32⟩
  | 34 => ⟨S4x4000000, .f32⟩
  | 35 => ⟨S_, .f32⟩
  | 36 => ⟨S4000000, .f32⟩
  | 37 => ⟨S4000000, .f32⟩
  | 38 => ⟨S4000000, .f32⟩
  | 39 => ⟨S1x4000000, .f32⟩
  | 40 => ⟨S4x4000000, .f32⟩
  | 41 => ⟨S4x4000000, .f32⟩
  | 42 => ⟨S4x4000000, .f32⟩
  | 43 => ⟨S_, .f32⟩
  | 44 => ⟨S4000000, .f32⟩
  | 45 => ⟨S4000000, .f32⟩
  | 46 => ⟨S4000000, .f32⟩
  | 47 => ⟨S1x4000000, .f32⟩
  | 48 => ⟨S4x4000000, .f32⟩
  | 49 => ⟨S4x4000000, .f32⟩
  | 50 => ⟨S4x4000000, .f32⟩
  | 51 => ⟨S4000000, .f32⟩
  | 52 => ⟨S1x4000000, .f32⟩
  | 53 => ⟨S4x4000000, .f32⟩
  | 54 => ⟨S4x4000000, .f32⟩
  | 55 => ⟨S4x4000000, .f32⟩
  | 56 => ⟨S4000000x4, .f32⟩
  | 57 => ⟨S4000000x7, .f32⟩
  | 58 => ⟨S4000000x16, .f32⟩
  | 59 => ⟨S1x16, .f32⟩
  | 60 => ⟨S4000000x16, .f32⟩
  | 61 => ⟨S4000000x16, .f32⟩
  | 62 => ⟨S_, .f32⟩
  | 63 => ⟨S4000000x16, .f32⟩
  | 64 => ⟨S4000000x16, .f32⟩
  | 65 => ⟨S4000000x16, .f32⟩
  | 66 => ⟨S1x16, .f32⟩
  | 67 => ⟨S4000000x16, .f32⟩
  | 68 => ⟨S4000000x16, .f32⟩
  | 69 => ⟨S_, .f32⟩
  | 70 => ⟨S4000000x16, .f32⟩
  | 71 => ⟨S4000000x16, .f32⟩
  | 72 => ⟨S4000000x16, .f32⟩
  | 73 => ⟨S1x16, .f32⟩
  | 74 => ⟨S4000000x16, .f32⟩
  | 75 => ⟨S4000000x16, .f32⟩
  | 76 => ⟨S_, .f32⟩
  | 77 => ⟨S4000000x16, .f32⟩
  | 78 => ⟨S4000000x16, .f32⟩
  | 79 => ⟨S4000000x16, .f32⟩
  | 80 => ⟨S1x16, .f32⟩
  | 81 => ⟨S4000000x16, .f32⟩
  | 82 => ⟨S4000000x16, .f32⟩
  | 83 => ⟨S_, .f32⟩
  | 84 => ⟨S4000000x16, .f32⟩
  | 85 => ⟨S4000000x16, .f32⟩
  | 86 => ⟨S4000000x3, .f32⟩
  | 87 => ⟨S1x3, .f32⟩
  | 88 => ⟨S4000000x3, .f32⟩
  | 89 => ⟨S4000000x3, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_7 : Ref sig .tc := ⟨.hbm, 43, rfl⟩
abbrev main_v18 : Ref sig .tc := ⟨.hbm, 44, rfl⟩
abbrev main_v19 : Ref sig .tc := ⟨.hbm, 45, rfl⟩
abbrev main_cst_8 : Ref sig .tc := ⟨.hbm, 46, rfl⟩
abbrev main_v20 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_cst_10 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c : Ref sig .tc := ⟨.hbm, 69, rfl⟩
abbrev main_v33 : Ref sig .tc := ⟨.hbm, 70, rfl⟩
abbrev main_v34 : Ref sig .tc := ⟨.hbm, 71, rfl⟩
abbrev main_c_13 : Ref sig .tc := ⟨.hbm, 72, rfl⟩
abbrev main_v35 : Ref sig .tc := ⟨.hbm, 73, rfl⟩
abbrev main_v36 : Ref sig .tc := ⟨.hbm, 74, rfl⟩
abbrev main_c_14 : Ref sig .tc := ⟨.hbm, 75, rfl⟩
abbrev main_v37 : Ref sig .tc := ⟨.hbm, 76, rfl⟩
abbrev main_v38 : Ref sig .tc := ⟨.hbm, 77, rfl⟩
abbrev main_c_15 : Ref sig .tc := ⟨.hbm, 78, rfl⟩
abbrev main_v39 : Ref sig .tc := ⟨.hbm, 79, rfl⟩
abbrev main_v40 : Ref sig .tc := ⟨.hbm, 80, rfl⟩
abbrev main_c_16 : Ref sig .tc := ⟨.hbm, 81, rfl⟩
abbrev main_v41 : Ref sig .tc := ⟨.hbm, 82, rfl⟩
abbrev main_v42 : Ref sig .tc := ⟨.hbm, 83, rfl⟩
abbrev main_c_17 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_18 : Ref sig .tc := ⟨.hbm, 88, rfl⟩
abbrev main_v46 : Ref sig .tc := ⟨.hbm, 89, rfl⟩
abbrev main_v47 : Ref sig .tc := ⟨.hbm, 90, rfl⟩
abbrev main_c_19 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_c_21 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_22 : Ref sig .tc := ⟨.hbm, 106, rfl⟩
abbrev main_v60 : Ref sig .tc := ⟨.hbm, 107, rfl⟩
abbrev main_v61 : Ref sig .tc := ⟨.hbm, 108, rfl⟩
abbrev main_c_23 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_24 : Ref sig .tc := ⟨.hbm, 117, rfl⟩
abbrev main_v69 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_26 : Ref sig .tc := ⟨.hbm, 124, rfl⟩
abbrev main_v74 : Ref sig .tc := ⟨.hbm, 125, rfl⟩
abbrev main_v75 : Ref sig .tc := ⟨.hbm, 126, rfl⟩
abbrev main_c_27 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_28 : Ref sig .tc := ⟨.hbm, 135, rfl⟩
abbrev main_v83 : Ref sig .tc := ⟨.hbm, 136, rfl⟩
abbrev main_v84 : Ref sig .tc := ⟨.hbm, 137, rfl⟩
abbrev main_c_29 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_30 : Ref sig .tc := ⟨.hbm, 142, rfl⟩
abbrev main_v88 : Ref sig .tc := ⟨.hbm, 143, rfl⟩
abbrev main_v89 : Ref sig .tc := ⟨.hbm, 144, rfl⟩
abbrev main_c_31 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_32 : Ref sig .tc := ⟨.hbm, 153, rfl⟩
abbrev main_v97 : Ref sig .tc := ⟨.hbm, 154, rfl⟩
abbrev main_v98 : Ref sig .tc := ⟨.hbm, 155, rfl⟩
abbrev main_cst_33 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_34 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_35 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_call2_cst : Ref sig .tc := ⟨.hbm, 190, rfl⟩
abbrev main_call2_v0 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_call3_cst : Ref sig .tc := ⟨.hbm, 197, rfl⟩
abbrev main_call3_v0 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_call4_cst : Ref sig .tc := ⟨.hbm, 204, rfl⟩
abbrev main_call4_v0 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_call5_cst : Ref sig .tc := ⟨.hbm, 211, rfl⟩
abbrev main_call5_v0 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩

abbrev nD : Nat := 1
abbrev τ : Topo := Topo.v7x

variable {F : FTy → Type} [FloatOps F]

class Facts₀ : Prop where
  slices_S4000000x3_S4000000x2_0_0 : S4000000x3.Slices ![0, 0] S4000000x2
  bcast_S_S4000000x2 : S_.BroadcastsInDim S4000000x2 (![] : Fin 0 → Fin S4000000x2.rank)
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S4000000_S1x4000000_1 : S4000000.BroadcastsInDim S1x4000000 (![1] : Fin 1 → Fin S1x4000000.rank)
  bcast_S1x4000000_S4x4000000_0_1 : S1x4000000.BroadcastsInDim S4x4000000 (![0, 1] : Fin 2 → Fin S4x4000000.rank)
  transposes_S4x4000000_S4000000x4_1_0 : S4x4000000.Transposes [1, 0] S4000000x4
  concatenates_S4000000x3_S4000000x4_S4000000x7_d1 : Shape.Concatenates [S4000000x3, S4000000x4] S4000000x7 1
  bcast_S16_S1x16_1 : S16.BroadcastsInDim S1x16 (![1] : Fin 1 → Fin S1x16.rank)
  bcast_S1x16_S4000000x16_0_1 : S1x16.BroadcastsInDim S4000000x16 (![0, 1] : Fin 2 → Fin S4000000x16.rank)
  bcast_S_S4000000x16 : S_.BroadcastsInDim S4000000x16 (![] : Fin 0 → Fin S4000000x16.rank)
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  gather_S4x512x512_S4000000x2_S4x4000000_0_12_n_n_12_1_411_wf : GatherDims.WF S4x512x512 S4000000x2 S4x4000000 [0] [1, 2] [] [1, 2] [] 1 ![4, 1, 1]
  dot_S4000000x7_S7x16_S4000000x16_1_0_0_1_n_n_wf : DotDims.WF S4000000x7 S7x16 S4000000x16 [1] [0] [0] [1] [] []
  dot_S4000000x16_S16x16_S4000000x16_1_0_0_1_n_n_wf : DotDims.WF S4000000x16 S16x16 S4000000x16 [1] [0] [0] [1] [] []
  dot_S4000000x16_S16x3_S4000000x3_1_0_0_1_n_n_wf : DotDims.WF S4000000x16 S16x3 S4000000x3 [1] [0] [0] [1] [] []

variable [Facts₀]

def gather_S4x512x512_S4000000x2_S4x4000000_0_12_n_n_12_1_411 : GatherDims S4x512x512 S4000000x2 S4x4000000 where
  offsetDims := [0]
  collapsedSliceDims := [1, 2]
  operandBatchingDims := []
  startIndicesBatchingDims := []
  startIndexMap := [1, 2]
  indexVectorDim := 1
  sliceSizes := ![4, 1, 1]
  wf := gather_S4x512x512_S4000000x2_S4x4000000_0_12_n_n_12_1_411_wf
def dot_S4000000x7_S7x16_S4000000x16_1_0_0_1_n_n : DotDims S4000000x7 S7x16 S4000000x16 where
  lhsContracting := [1]
  rhsContracting := [0]
  lhsNonContracting := [0]
  rhsNonContracting := [1]
  lhsBatch := []
  rhsBatch := []
  wf := dot_S4000000x7_S7x16_S4000000x16_1_0_0_1_n_n_wf
def dot_S4000000x16_S16x16_S4000000x16_1_0_0_1_n_n : DotDims S4000000x16 S16x16 S4000000x16 where
  lhsContracting := [1]
  rhsContracting := [0]
  lhsNonContracting := [0]
  rhsNonContracting := [1]
  lhsBatch := []
  rhsBatch := []
  wf := dot_S4000000x16_S16x16_S4000000x16_1_0_0_1_n_n_wf
def dot_S4000000x16_S16x3_S4000000x3_1_0_0_1_n_n : DotDims S4000000x16 S16x3 S4000000x3 where
  lhsContracting := [1]
  rhsContracting := [0]
  lhsNonContracting := [0]
  rhsNonContracting := [1]
  lhsBatch := []
  rhsBatch := []
  wf := dot_S4000000x16_S16x3_S4000000x3_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.MlpSpec.lean ====
/-
  The five-layer perceptron as a function of ONE row. A row `h` of width K goes through an affine layer
  `h ↦ (Σ k, h k · w (k, n)) + b n`; the first four layers are followed by the positive part `max · 0`; the
  last one is not. Every entry of the result depends only on the same row of the input array, so a block of
  rows of the input gives the same block of rows of the result (`rows_local`): this is what joins a kernel
  working on blocks of rows with a reference working on the whole array. The array-level lemmas say that a
  matrix product into a zero accumulator (inside a kernel body, or the host's) plus a bias that is constant along
  the rows is the affine layer applied row by row, and that the maximum with an all-zero array is the positive part.
-/
import Idealize.ShloMosaic.PureOps.Ideal.Laws
import Idealize.ShloMosaic.Lib.ValueIdx
import proofs.«130462_j9234179686517_1_alg».proof.Proof.LibPlainDot

noncomputable section

open scoped BigOperators

namespace MlpSpec

open Idealize.ShloMosaic Idealize.ShloMosaic.ValueIdx

/-- The zero both programs clamp against, as the word they print. -/
abbrev z0 : EReal := Ideal.ofBits .f32 0x00000000#32

/-- The one row of a 1×N array. -/
abbrev brow {N : Nat} (x : (⟨2, ![1, N]⟩ : Shape).Idx → EReal) : Fin N → EReal := fun n => x (ix2 0 n)

/-- A vector of length N as a function of its one coordinate. -/
abbrev bvec {N : Nat} (x : (⟨1, ![N]⟩ : Shape).Idx → EReal) : Fin N → EReal := fun n => x (ix1 n)

/-- One affine layer on a row. -/
def lin {K N : Nat} (w : (⟨2, ![K, N]⟩ : Shape).Idx → EReal) (b : Fin N → EReal) (h : Fin K → EReal) : Fin N → EReal :=
  fun n => (∑ k : Fin K, h k * w (ix2 k n)) + b n

/-- The positive part, entry by entry. -/
def pos {N : Nat} (h : Fin N → EReal) : Fin N → EReal := fun n => max (h n) z0

section
variable (W1 : (⟨2, ![7, 16]⟩ : Shape).Idx → EReal) (b1 : Fin 16 → EReal)
  (W2 : (⟨2, ![16, 16]⟩ : Shape).Idx → EReal) (b2 : Fin 16 → EReal)
  (W3 : (⟨2, ![16, 16]⟩ : Shape).Idx → EReal) (b3 : Fin 16 → EReal)
  (W4 : (⟨2, ![16, 16]⟩ : Shape).Idx → EReal) (b4 : Fin 16 → EReal)
  (W5 : (⟨2, ![16, 3]⟩ : Shape).Idx → EReal) (b5 : Fin 3 → EReal)

/-- The whole perceptron on a row of width 7. -/
def row (h : Fin 7 → EReal) : Fin 3 → EReal :=
  lin W5 b5 (pos (lin W4 b4 (pos (lin W3 b3 (pos (lin W2 b2 (pos (lin W1 b1 h))))))))

/-- The perceptron applied to every row of an array of M rows. -/
def rows (M : Nat) (x : (⟨2, ![M, 7]⟩ : Shape).Idx → EReal) : (⟨2, ![M, 3]⟩ : Shape).Idx → EReal :=
  fun j => row W1 b1 W2 b2 W3 b3 W4 b4 W5 b5 (fun k => x (ix2 (j 0) k)) (j 1)

/-- A row of the result depends only on the same row of the input: if row `j 0` of one array is row `j' 0` of another
    (the arrays may have different heights), the results agree at `j` and `j'` in every column. -/
theorem rows_local {M M' : Nat} (x : (⟨2, ![M, 7]⟩ : Shape).Idx → EReal) (x' : (⟨2, ![M', 7]⟩ : Shape).Idx → EReal)
    (j : (⟨2, ![M, 3]⟩ : Shape).Idx) (j' : (⟨2, ![M', 3]⟩ : Shape).Idx) (hq : (j 1 : Fin 3) = j' 1)
    (h : ∀ k : Fin 7, x (ix2 (j 0) k) = x' (ix2 (j' 0) k)) :
    rows W1 b1 W2 b2 W3 b3 W4 b4 W5 b5 M x j = rows W1 b1 W2 b2 W3 b3 W4 b4 W5 b5 M' x' j' := by
  show row W1 b1 W2 b2 W3 b3 W4 b4 W5 b5 (fun k => x (ix2 (j 0) k)) (j 1) = row W1 b1 W2 b2 W3 b3 W4 b4 W5 b5 (fun k => x' (ix2 (j' 0) k)) (j' 1)
  rw [funext h, hq]
end

/-- An affine layer applied to every row of an array. -/
def linA (M : Nat) {K N : Nat} (w : (⟨2, ![K, N]⟩ : Shape).Idx → EReal) (b : Fin N → EReal)
    (x : (⟨2, ![M, K]⟩ : Shape).Idx → EReal) : (⟨2, ![M, N]⟩ : Shape).Idx → EReal :=
  fun j => lin w b (fun k => x (ix2 (j 0) k)) (j 1)

/-- The positive part of every entry of an array. -/
def posA (M N : Nat) (y : (⟨2, ![M, N]⟩ : Shape).Idx → EReal) : (⟨2, ![M, N]⟩ : Shape).Idx → EReal :=
  fun j => max (y j) z0

/-- The perceptron on every row is the five array-level layers one after the other. -/
theorem rows_eq_layers (W1 : (⟨2, ![7, 16]⟩ : Shape).Idx → EReal) (b1 : Fin 16 → EReal)
    (W2 : (⟨2, ![16, 16]⟩ : Shape).Idx → EReal) (b2 : Fin 16 → EReal)
    (W3 : (⟨2, ![16, 16]⟩ : Shape).Idx → EReal) (b3 : Fin 16 → EReal)
    (W4 : (⟨2, ![16, 16]⟩ : Shape).Idx → EReal) (b4 : Fin 16 → EReal)
    (W5 : (⟨2, ![16, 3]⟩ : Shape).Idx → EReal) (b5 : Fin 3 → EReal) (M : Nat) (x : (⟨2, ![M, 7]⟩ : Shape).Idx → EReal) :
    linA M W5 b5 (posA M 16 (linA M W4 b4 (posA M 16 (linA M W3 b3 (posA M 16 (linA M W2 b2 (posA M 16 (linA M W1 b1 x))))))))
      = rows W1 b1 W2 b2 W3 b3 W4 b4 W5 b5 M x := by
  funext j
  rfl

variable (M K N : Nat)

/-- A kernel's product into the zero accumulator plus a bias that is constant along the rows: the affine layer on
    every row. The dimension numbers are any record equal to the plain ones (contract the left operand's last
    axis with the right operand's first). -/
theorem matmul_bias {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂)
    (bb : FVec Ideal ⟨2, ![M, N]⟩ .f32) (b : Fin N → EReal) (hb : ∀ j, bb j = b (j 1)) :
    addf (FloatOps.matmul d none x w (constant ⟨2, ![M, N]⟩ .f32 0x00000000#32)) bb = linA M w b x := by
  subst hd
  funext j
  rw [addf_apply, PlainDot.matmul_zero_apply, hb]
  rfl

/-- The same for the host's product. -/
theorem dot_bias {φ₁ φ₂ : FTy} (d : DotDims ⟨2, ![M, K]⟩ ⟨2, ![K, N]⟩ ⟨2, ![M, N]⟩) (hd : d = DotDims.plain M K N)
    (sched : HostSchedule) (x : FVec Ideal ⟨2, ![M, K]⟩ φ₁) (w : FVec Ideal ⟨2, ![K, N]⟩ φ₂)
    (bb : FVec Ideal ⟨2, ![M, N]⟩ .f32) (b : Fin N → EReal) (hb : ∀ j, bb j = b (j 1)) :
    addf (FloatOps.dotGeneral d none sched x w) bb = linA M w b x := by
  subst hd
  funext j
  rw [addf_apply, PlainDot.dotGeneral_apply, hb]
  rfl

/-- The maximum with an array that is zero everywhere is the positive part. -/
theorem max_zero (y zz : FVec Ideal ⟨2, ![M, N]⟩ .f32) (hz : ∀ j, zz j = z0) : maximumf y zz = posA M N y := by
  funext j
  rw [maximumf_apply, hz]
  rfl

end MlpSpec

end
-- ==== Proof.KerPay.lean ====
/-
  What the kernel body stores for one block of rows. The body multiplies its block of 50000 rows by the first
  weight matrix into a zero accumulator, adds the bias row (a 1×16 block broadcast along the rows), takes the
  maximum with zero, changes the format (the identity on the extended reals), and repeats this for the other
  layers; the last layer has no maximum. So the stored 50000×3 array is the perceptron applied to each of the
  block's rows, with the weight blocks as the matrices and the one row of each bias block as the bias.
-/
import proofs.«130462_j9234179686517_1_alg».proof.Proof.Gen.KernelIdeal.Skeleton
import proofs.«130462_j9234179686517_1_alg».proof.Proof.MlpSpec
import Idealize.ShloMosaic.Lib.Pipeline.Value

noncomputable section

namespace Cert.KernelIdeal.Pay

open Cert.KernelIdeal Cert.KernelIdeal.Gen Idealize.ShloMosaic Idealize.ShloMosaic.ValueIdx MlpSpec

/-- A 1×N block broadcast to M rows, read at an index: the block's entry in the index's column. -/
theorem bias_apply (M N : Nat) (v : (⟨2, ![1, N]⟩ : Shape).Idx → EReal)
    (h : (⟨2, ![1, N]⟩ : Shape).Broadcasts ⟨2, ![M, N]⟩) (j : (⟨2, ![M, N]⟩ : Shape).Idx) :
    broadcastTo ⟨2, ![M, N]⟩ v h j = brow v (j 1) := by
  refine broadcastTo_apply v h j (ix2 0 (j 1)) (fun a => ?_)
  match a with
  | ⟨0, _⟩ => show (0 : Nat) = if (1 : Nat) = 1 then 0 else _; rw [if_pos rfl]
  | ⟨1, _⟩ =>
    show (j 1).val = if N = 1 then 0 else (j 1).val
    by_cases hN : N = 1
    · rw [if_pos hN]; have h1 : (j 1).val < N := (j 1).isLt; omega
    · rw [if_neg hN]

/-- One layer as the body spells it: product into zero, plus the broadcast bias block. -/
theorem layer (M K N : Nat) {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (bv : FVec Ideal ⟨2, ![1, N]⟩ .f32)
    (h1 : (⟨2, ![K, N]⟩ : Shape).ShapeCasts ⟨2, ![K, N]⟩) (h2 : (⟨2, ![1, N]⟩ : Shape).ShapeCasts ⟨2, ![1, N]⟩)
    (h3 : (⟨2, ![1, N]⟩ : Shape).Broadcasts ⟨2, ![M, N]⟩) :
    addf (matmul d none x (shapeCast ⟨2, ![K, N]⟩ w h1) (constant ⟨2, ![M, N]⟩ .f32 0x00000000#32))
        (broadcastTo ⟨2, ![M, N]⟩ (shapeCast ⟨2, ![1, N]⟩ bv h2) h3)
      = MlpSpec.linA M w (brow bv) x := by
  rw [shapeCast_self, shapeCast_self]
  exact MlpSpec.matmul_bias M K N d hd x w _ (brow bv) (fun j => bias_apply M N bv h3 j)

/-- The maximum with the splat of zero, then the change of format: the positive part. -/
theorem relu (M N : Nat) (y : FVec Ideal ⟨2, ![M, N]⟩ .f32) (h : FTy.bf16.bits < FTy.f32.bits) :
    truncf .bf16 (maximumf y (broadcast ⟨2, ![M, N]⟩ (Scalar.ofBits (F := Ideal) .f32 0x00000000#32))) h = MlpSpec.posA M N y :=
  MlpSpec.max_zero M N y _ (fun _ => rfl)

/-- The stored array of one block: the perceptron on each of the block's rows. -/
theorem pay_eq (x0 : Vec Ideal S50000x7 .bf16) (x1 : Vec Ideal S7x16 .bf16) (x2 : Vec Ideal S1x16 .f32)
    (x3 : Vec Ideal S16x16 .bf16) (x4 : Vec Ideal S1x16 .f32) (x5 : Vec Ideal S16x16 .bf16) (x6 : Vec Ideal S1x16 .f32)
    (x7 : Vec Ideal S16x16 .bf16) (x8 : Vec Ideal S1x16 .f32) (x9 : Vec Ideal S16x3 .bf16) (x10 : Vec Ideal S1x3 .f32) :
    k0_pay1 (F := Ideal) (k0_pay2 (F := Ideal) x0 x1 x2 x3 x4 x5 x6 x7) x8 x9 x10
      = MlpSpec.rows x1 (brow x2) x3 (brow x4) x5 (brow x6) x7 (brow x8) x9 (brow x10) 50000 x0 := by
  rw [← MlpSpec.rows_eq_layers]
  unfold k0_pay1 k0_pay2
  dsimp only
  rw [shapeCast_self x0]
  rw [layer 50000 7 16 dot_S50000x7_S7x16_S50000x16_1_0_0_1_n_n rfl, relu,
    layer 50000 16 16 dot_S50000x16_S16x16_S50000x16_1_0_0_1_n_n rfl, relu,
    layer 50000 16 16 dot_S50000x16_S16x16_S50000x16_1_0_0_1_n_n rfl, relu,
    layer 50000 16 16 dot_S50000x16_S16x16_S50000x16_1_0_0_1_n_n rfl, relu,
    layer 50000 16 3 dot_S50000x16_S16x3_S50000x3_1_0_0_1_n_n rfl]

end Cert.KernelIdeal.Pay

end
-- ==== Proof.KerHostW.lean ====
/-
  What the region finds in the arrays of its weight and bias windows. Before the region the host only changes
  the format of each weight matrix (the identity on the extended reals) and reshapes each bias vector of length N
  to a 1×N array, whose one row is the vector.
-/
import proofs.«130462_j9234179686517_1_alg».proof.Proof.Gen.KernelIdeal.Frame
import proofs.«130462_j9234179686517_1_alg».proof.Proof.MlpSpec
import Idealize.ShloMosaic.Lib.StableHlo.Run
import Idealize.ShloMosaic.Lib.Pipeline.Value

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx MlpSpec

variable (m : (ℓ : Loc nD τ sig) → Buf (Elt Ideal) ℓ)

/-- A vector of length N reshaped to a 1×N array: its one row is the vector. -/
theorem brow_reshape (N : Nat) (v : (⟨1, ![N]⟩ : Shape).Idx → EReal) (h : (⟨1, ![N]⟩ : Shape).ShapeCasts ⟨2, ![1, N]⟩) :
    brow (shapeCast ⟨2, ![1, N]⟩ v h) = bvec v := by
  funext n
  refine shapeCast_apply v h (ix2 0 n) (ix1 n) ?_
  rewrite [Shape.rowMajor_val_one, Shape.rowMajor_val_two]
  show n.val = 0 * N + n.val
  omega

set_option maxRecDepth 8192 in
set_option maxHeartbeats 4000000 in
/-- The first layer's weights, as the region finds them. -/
theorem w1_eq (c : Dev nD) : (V m c main_v127 : S7x16.Idx → EReal) = m ((c : Thread nD τ).loc main_arg2) := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The second layer's weights. -/
theorem w2_eq (c : Dev nD) : (V m c main_v128 : S16x16.Idx → EReal) = m ((c : Thread nD τ).loc main_arg4) := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The third layer's weights. -/
theorem w3_eq (c : Dev nD) : (V m c main_v129 : S16x16.Idx → EReal) = m ((c : Thread nD τ).loc main_arg6) := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The fourth layer's weights. -/
theorem w4_eq (c : Dev nD) : (V m c main_v130 : S16x16.Idx → EReal) = m ((c : Thread nD τ).loc main_arg8) := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The last layer's weights. -/
theorem w5_eq (c : Dev nD) : (V m c main_v131 : S16x3.Idx → EReal) = m ((c : Thread nD τ).loc main_arg10) := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The first layer's bias, as a 1×16 array. -/
theorem b1_eq (c : Dev nD) : (V m c main_v132 : S1x16.Idx → EReal)
    = shapeCast S1x16 (m ((c : Thread nD τ).loc main_arg3) : S16.Idx → EReal) shapeCasts_S16_S1x16 := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The second layer's bias. -/
theorem b2_eq (c : Dev nD) : (V m c main_v133 : S1x16.Idx → EReal)
    = shapeCast S1x16 (m ((c : Thread nD τ).loc main_arg5) : S16.Idx → EReal) shapeCasts_S16_S1x16 := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The third layer's bias. -/
theorem b3_eq (c : Dev nD) : (V m c main_v134 : S1x16.Idx → EReal)
    = shapeCast S1x16 (m ((c : Thread nD τ).loc main_arg7) : S16.Idx → EReal) shapeCasts_S16_S1x16 := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The fourth layer's bias. -/
theorem b4_eq (c : Dev nD) : (V m c main_v135 : S1x16.Idx → EReal)
    = shapeCast S1x16 (m ((c : Thread nD τ).loc main_arg9) : S16.Idx → EReal) shapeCasts_S16_S1x16 := by
  dsimp only [V]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 4000000 in
/-- The last layer's bias, as a 1×3 array. -/
theorem b5_eq (c : Dev nD) : (V m c main_v136 : S1x3.Idx → EReal)
    = shapeCast S1x3 (m ((c : Thread nD τ).loc main_arg11) : S3.Idx → EReal) shapeCasts_S3_S1x3 := by
  dsimp only [V]
  simp only [hostOps0, hostOps0_1, hostOps0_2, hostOps0_3, hostOps0_4, List.flatten_cons, List.flatten_nil, List.append_nil, List.cons_append, List.nil_append]
  after_results_simp
  rfl

end Cert.KernelIdeal.HostVal

end
-- ==== Proof.KerValue.lean ====
/-
  The kernel's result array. The grid has 80 points; point t works on rows 50000·t … 50000·t + 49999 of the
  4000000×7 array the region finds in its first window, with every weight matrix and every bias row whole at every
  point, and writes back rows 50000·t … of the 4000000×3 result. What a point writes is the perceptron on each of
  its block's rows; since a row of the perceptron's result depends only on the same row of its input, that is the
  point's block of the perceptron applied to all 4000000 rows. The 80 blocks tile the result array, so the result
  array ends as the perceptron on every row.
-/
import proofs.«130462_j9234179686517_1_alg».proof.Proof.Gen.KernelIdeal.Value
import proofs.«130462_j9234179686517_1_alg».proof.Proof.KerPay
import proofs.«130462_j9234179686517_1_alg».proof.Proof.KerHostW
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx MlpSpec

variable (m : (ℓ : Loc nD τ sig) → Buf (Elt Ideal) ℓ) (ρ : Dev nD → PrngReg)

theorem hz : (![0, 0] : Fin 2 → Nat) = fun _ => 0 := funext fun a => by fin_cases a <;> rfl

/-- The result: the perceptron, with the arguments' weights and biases, on every row of the array the region
    finds in its first window. -/
abbrev G (c : Dev nD) : Buf (Elt Ideal) ((c : Thread nD τ).loc main_v137) :=
  rows (m ((c : Thread nD τ).loc main_arg2)) (bvec (m ((c : Thread nD τ).loc main_arg3)))
    (m ((c : Thread nD τ).loc main_arg4)) (bvec (m ((c : Thread nD τ).loc main_arg5)))
    (m ((c : Thread nD τ).loc main_arg6)) (bvec (m ((c : Thread nD τ).loc main_arg7)))
    (m ((c : Thread nD τ).loc main_arg8)) (bvec (m ((c : Thread nD τ).loc main_arg9)))
    (m ((c : Thread nD τ).loc main_arg10)) (bvec (m ((c : Thread nD τ).loc main_arg11)))
    4000000 (V m c main_v126 : S4000000x7.Idx → EReal)

/-- The block indices, decided over the 80 points: the first window and the result move down one block of rows per
    point; every other window stays at block (0, 0). -/
theorem idx_rows : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The first window's block at point t is rows 50000·t … of its array. -/
theorem iblk0_apply (c : Dev nD) (t : Fin cfg0.N) (p : Fin 50000) (k : Fin 7) (P : Fin 4000000)
    (hP : P.val = t.val * 50000 + p.val) :
    (iblk m c 0 t : Vec Ideal S50000x7 .bf16) (ix2 p k) = (V m c main_v126 : S4000000x7.Idx → EReal) (ix2 P k) := by
  obtain ⟨e0, e1, -, -⟩ := idx_rows t
  unfold iblk
  rw [View.read_apply]
  show V m c main_v126 _ = V m c main_v126 _
  congr 1
  funext a
  apply Fin.ext
  match a with
  | ⟨0, _⟩ => show win0_0.index t (0 : Fin 2) * 50000 + 1 * p.val = P.val; omega
  | ⟨1, _⟩ => show win0_0.index t (1 : Fin 2) * 7 + 1 * k.val = k.val; omega

/-- Each weight window's block, at any point, is its whole array; each bias window's block is its whole 1×N array. -/
theorem iblk1_eq (c : Dev nD) (t : Fin cfg0.N) : (iblk m c 1 t : Vec Ideal S7x16 .bf16) = m ((c : Thread nD τ).loc main_arg2) := by
  obtain ⟨⟨e0, e1⟩, -⟩ := idx_whole t
  funext y
  unfold iblk
  rw [View.read_apply]
  show V m c main_v127 _ = _
  refine (congrFun (HostVal.w1_eq m c) _).trans ?_
  congr 1
  funext a
  apply Fin.ext
  match a with
  | ⟨0, _⟩ => show win0_1.index t (0 : Fin 2) * 7 + 1 * (y 0).val = (y 0).val; omega
  | ⟨1, _⟩ => show win0_1.index t (1 : Fin 2) * 16 + 1 * (y 1).val = (y 1).val; omega

theorem iblk3_eq (c : Dev nD) (t : Fin cfg0.N) : (iblk m c 3 t : Vec Ideal S16x16 .bf16) = m ((c : Thread nD τ).loc main_arg4) := by
  obtain ⟨-, -, ⟨e0, e1⟩, -⟩ := idx_whole t
  funext y
  unfold iblk
  rw [View.read_apply]
  show V m c main_v128 _ = _
  refine (congrFun (HostVal.w2_eq m c) _).trans ?_
  congr 1
  funext a
  apply Fin.ext
  match a with
  | ⟨0, _⟩ => show win0_3.index t (0 : Fin 2) * 16 + 1 * (y 0).val = (y 0).val; omega
  | ⟨1, _⟩ => show win0_3.index t (1 : Fin 2) * 16 + 1 * (y 1).val = (y 1).val; omega

theorem iblk5_eq (c : Dev nD) (t : Fin cfg0.N) : (iblk m c 5 t : Vec Ideal S16x16 .bf16) = m ((c : Thread nD τ).loc main_arg6) := by
  obtain ⟨-, -, -, -, ⟨e0, e1⟩, -⟩ := idx_whole t
  funext y
  unfold iblk
  rw [View.read_apply]
  show V m c main_v129 _ = _
  refine (congrFun (HostVal.w3_eq m c) _).trans ?_
  congr 1
  funext a
  apply Fin.ext
  match a with
  | ⟨0, _⟩ => show win0_5.index t (0 : Fin 2) * 16 + 1 * (y 0).val = (y 0).val; omega
  | ⟨1, _⟩ => show win0_5.index t (1 : Fin 2) * 16 + 1 * (y 1).val = (y 1).val; omega

theorem iblk7_eq (c : Dev nD) (t : Fin cfg0.N) : (iblk m c 7 t : Vec Ideal S16x16 .bf16) = m ((c : Thread nD τ).loc main_arg8) := by
  obtain ⟨-, -, -, -, -, -, ⟨e0, e1⟩, -⟩ := idx_whole t
  funext y
  unfold iblk
  rw [View.read_apply]
  show V m c main_v130 _ = _
  refine (congrFun (HostVal.w4_eq m c) _).trans ?_
  congr 1
  funext a
  apply Fin.ext
  match a with
  | ⟨0, _⟩ => show win0_7.index t (0 : Fin 2) * 16 + 1 * (y 0).val = (y 0).val; omega
  | ⟨1, _⟩ => show win0_7.index t (1 : Fin 2) * 16 + 1 * (y 1).val = (y 1).val; omega

theorem iblk9_eq (c : Dev nD) (t : Fin cfg0.N) : (iblk m c 9 t : Vec Ideal S16x3 .bf16) = m ((c : Thread nD τ).loc main_arg10) := by
  obtain ⟨-, -, -, -, -, -, -, -, ⟨e0, e1⟩, -⟩ := idx_whole t
  funext y
  unfold iblk
  rw [View.read_apply]
  show V m c main_v131 _ = _
  refine (congrFun (HostVal.w5_eq m c) _).trans ?_
  congr 1
  funext a
  apply Fin.ext
  match a with
  | ⟨0, _⟩ => show win0_9.index t (0 : Fin 2) * 16 + 1 * (y 0).val = (y 0).val; omega
  | ⟨1, _⟩ => show win0_9.index t (1 : Fin 2) * 3 + 1 * (y 1).val = (y 1).val; omega

/-- The one row of each bias window's block is the bias vector. -/
theorem iblk2_row (c : Dev nD) (t : Fin cfg0.N) : brow (iblk m c 2 t : Vec Ideal S1x16 .f32) = bvec (m ((c : Thread nD τ).loc main_arg3)) := by
  obtain ⟨-, ⟨e0, e1⟩, -⟩ := idx_whole t
  have h : (iblk m c 2 t : Vec Ideal S1x16 .f32)
      = shapeCast S1x16 (m ((c : Thread nD τ).loc main_arg3) : S16.Idx → EReal) shapeCasts_S16_S1x16 := by
    funext y
    unfold iblk
    rw [View.read_apply]
    show V m c main_v132 _ = _
    refine (congrFun (HostVal.b1_eq m c) _).trans ?_
    congr 1
    funext a
    apply Fin.ext
    match a with
    | ⟨0, _⟩ => show win0_2.index t (0 : Fin 2) * 1 + 1 * (y 0).val = (y 0).val; omega
    | ⟨1, _⟩ => show win0_2.index t (1 : Fin 2) * 16 + 1 * (y 1).val = (y 1).val; omega
  rw [h]
  exact HostVal.brow_reshape 16 _ _

theorem iblk4_row (c : Dev nD) (t : Fin cfg0.N) : brow (iblk m c 4 t : Vec Ideal S1x16 .f32) = bvec (m ((c : Thread nD τ).loc main_arg5)) := by
  obtain ⟨-, -, -, ⟨e0, e1⟩, -⟩ := idx_whole t
  have h : (iblk m c 4 t : Vec Ideal S1x16 .f32)
      = shapeCast S1x16 (m ((c : Thread nD τ).loc main_arg5) : S16.Idx → EReal) shapeCasts_S16_S1x16 := by
    funext y
    unfold iblk
    rw [View.read_apply]
    show V m c main_v133 _ = _
    refine (congrFun (HostVal.b2_eq m c) _).trans ?_
    congr 1
    funext a
    apply Fin.ext
    match a with
    | ⟨0, _⟩ => show win0_4.index t (0 : Fin 2) * 1 + 1 * (y 0).val = (y 0).val; omega
    | ⟨1, _⟩ => show win0_4.index t (1 : Fin 2) * 16 + 1 * (y 1).val = (y 1).val; omega
  rw [h]
  exact HostVal.brow_reshape 16 _ _

theorem iblk6_row (c : Dev nD) (t : Fin cfg0.N) : brow (iblk m c 6 t : Vec Ideal S1x16 .f32) = bvec (m ((c : Thread nD τ).loc main_arg7)) := by
  obtain ⟨-, -, -, -, -, ⟨e0, e1⟩, -⟩ := idx_whole t
  have h : (iblk m c 6 t : Vec Ideal S1x16 .f32)
      = shapeCast S1x16 (m ((c : Thread nD τ).loc main_arg7) : S16.Idx → EReal) shapeCasts_S16_S1x16 := by
    funext y
    unfold iblk
    rw [View.read_apply]
    show V m c main_v134 _ = _
    refine (congrFun (HostVal.b3_eq m c) _).trans ?_
    congr 1
    funext a
    apply Fin.ext
    match a with
    | ⟨0, _⟩ => show win0_6.index t (0 : Fin 2) * 1 + 1 * (y 0).val = (y 0).val; omega
    | ⟨1, _⟩ => show win0_6.index t (1 : Fin 2) * 16 + 1 * (y 1).val = (y 1).val; omega
  rw [h]
  exact HostVal.brow_reshape 16 _ _

theorem iblk8_row (c : Dev nD) (t : Fin cfg0.N) : brow (iblk m c 8 t : Vec Ideal S1x16 .f32) = bvec (m ((c : Thread nD τ).loc main_arg9)) := by
  obtain ⟨-, -, -, -, -, -, -, ⟨e0, e1⟩, -⟩ := idx_whole t
  have h : (iblk m c 8 t : Vec Ideal S1x16 .f32)
      = shapeCast S1x16 (m ((c : Thread nD τ).loc main_arg9) : S16.Idx → EReal) shapeCasts_S16_S1x16 := by
    funext y
    unfold iblk
    rw [View.read_apply]
    show V m c main_v135 _ = _
    refine (congrFun (HostVal.b4_eq m c) _).trans ?_
    congr 1
    funext a
    apply Fin.ext
    match a with
    | ⟨0, _⟩ => show win0_8.index t (0 : Fin 2) * 1 + 1 * (y 0).val = (y 0).val; omega
    | ⟨1, _⟩ => show win0_8.index t (1 : Fin 2) * 16 + 1 * (y 1).val = (y 1).val; omega
  rw [h]
  exact HostVal.brow_reshape 16 _ _

theorem iblk10_row (c : Dev nD) (t : Fin cfg0.N) : brow (iblk m c 10 t : Vec Ideal S1x3 .f32) = bvec (m ((c : Thread nD τ).loc main_arg11)) := by
  obtain ⟨-, -, -, -, -, -, -, -, -, e0, e1⟩ := idx_whole t
  have h : (iblk m c 10 t : Vec Ideal S1x3 .f32)
      = shapeCast S1x3 (m ((c : Thread nD τ).loc main_arg11) : S3.Idx → EReal) shapeCasts_S3_S1x3 := by
    funext y
    unfold iblk
    rw [View.read_apply]
    show V m c main_v136 _ = _
    refine (congrFun (HostVal.b5_eq m c) _).trans ?_
    congr 1
    funext a
    apply Fin.ext
    match a with
    | ⟨0, _⟩ => show win0_10.index t (0 : Fin 2) * 1 + 1 * (y 0).val = (y 0).val; omega
    | ⟨1, _⟩ => show win0_10.index t (1 : Fin 2) * 3 + 1 * (y 1).val = (y 1).val; omega
  rw [h]
  exact HostVal.brow_reshape 3 _ _

/-- WHAT POINT t WRITES BACK is block t of the result. -/
theorem flushed_eq (c : Dev nD) (t : Fin cfg0.N) :
    (dats m 0 c).flushed 11 t = ((cfg0.win 11).blk t).view.read (Elt Ideal) (G m c) := by
  rw [flushed11]
  unfold out0_11
  rw [View.canon_unit_zero hz]
  simp only [View.ld_unit_zero (S := S50000x7) hz, View.ld_unit_zero (S := S7x16) hz, View.ld_unit_zero (S := S1x16) hz,
    View.ld_unit_zero (S := S16x16) hz, View.ld_unit_zero (S := S16x3) hz, View.ld_unit_zero (S := S1x3) hz]
  rw [Pay.pay_eq, iblk1_eq, iblk2_row, iblk3_eq, iblk4_row, iblk5_eq, iblk6_row, iblk7_eq, iblk8_row, iblk9_eq, iblk10_row]
  obtain ⟨-, -, e0, e1⟩ := idx_rows t
  funext j
  show rows (m ((c : Thread nD τ).loc main_arg2)) (bvec (m ((c : Thread nD τ).loc main_arg3)))
      (m ((c : Thread nD τ).loc main_arg4)) (bvec (m ((c : Thread nD τ).loc main_arg5)))
      (m ((c : Thread nD τ).loc main_arg6)) (bvec (m ((c : Thread nD τ).loc main_arg7)))
      (m ((c : Thread nD τ).loc main_arg8)) (bvec (m ((c : Thread nD τ).loc main_arg9)))
      (m ((c : Thread nD τ).loc main_arg10)) (bvec (m ((c : Thread nD τ).loc main_arg11)))
      50000 (iblk m c 0 t : Vec Ideal S50000x7 .bf16) j
    = rows (m ((c : Thread nD τ).loc main_arg2)) (bvec (m ((c : Thread nD τ).loc main_arg3)))
      (m ((c : Thread nD τ).loc main_arg4)) (bvec (m ((c : Thread nD τ).loc main_arg5)))
      (m ((c : Thread nD τ).loc main_arg6)) (bvec (m ((c : Thread nD τ).loc main_arg7)))
      (m ((c : Thread nD τ).loc main_arg8)) (bvec (m ((c : Thread nD τ).loc main_arg9)))
      (m ((c : Thread nD τ).loc main_arg10)) (bvec (m ((c : Thread nD τ).loc main_arg11)))
      4000000 (V m c main_v126 : S4000000x7.Idx → EReal) (((cfg0.win 11).blk t).view.emb j)
  refine rows_local _ _ _ _ _ _ _ _ _ _ (iblk m c 0 t : Vec Ideal S50000x7 .bf16) (V m c main_v126 : S4000000x7.Idx → EReal)
    j (((cfg0.win 11).blk t).view.emb j) (Fin.ext ?_) (fun k => iblk0_apply m c t (j 0) k ((((cfg0.win 11).blk t).view.emb j) 0) ?_)
  · show (j 1).val = win0_11.index t (1 : Fin 2) * 3 + 1 * (j 1).val
    omega
  · show win0_11.index t (0 : Fin 2) * 50000 + 1 * (j 0).val = t.val * 50000 + (j 0).val
    omega

/-- An index of the result array is in point t's block iff each coordinate is in the block's range on its axis. -/
theorem mem_blk (t : Fin cfg0.N) (i : S4000000x3.Idx) :
    i ∈ ((cfg0.win 11).blk t).view.set ↔ ∀ a : Fin 2, win0_11.index t a * S50000x3.size a ≤ (i a).val
      ∧ (i a).val < win0_11.index t a * S50000x3.size a + S50000x3.size a := by
  show i ∈ ((View.whole main_v137).slice (win0_11.rect t)).set ↔ _
  rw [View.set_slice_whole, Rect.mem_set_unit]
  exact Iff.rfl

/-- Every index of the result array is in some point's block: row r is in the block of point r / 50000. -/
theorem cover (i : S4000000x3.Idx) :
    ∃ t : Fin cfg0.N, (cfg0.win 11).flush t = true ∧ i ∈ ((cfg0.win 11).blk t).view.set := by
  have hi0 : (i 0).val < 4000000 := (i 0).isLt
  have hi1 : (i 1).val < 3 := (i 1).isLt
  have hN : cfg0.N = 80 := N_0
  have hlt : (i 0).val / 50000 < cfg0.N := by rw [hN]; omega
  obtain ⟨-, -, e0, e1⟩ := idx_rows ⟨(i 0).val / 50000, hlt⟩
  refine ⟨⟨(i 0).val / 50000, hlt⟩, flush0_11 _, ?_⟩
  rw [mem_blk]
  intro a
  match a with
  | ⟨0, _⟩ =>
    show win0_11.index ⟨(i 0).val / 50000, hlt⟩ (0 : Fin 2) * 50000 ≤ (i 0).val
      ∧ (i 0).val < win0_11.index ⟨(i 0).val / 50000, hlt⟩ (0 : Fin 2) * 50000 + 50000
    rw [e0]
    show (i 0).val / 50000 * 50000 ≤ (i 0).val ∧ (i 0).val < (i 0).val / 50000 * 50000 + 50000
    omega
  | ⟨1, _⟩ =>
    show win0_11.index ⟨(i 0).val / 50000, hlt⟩ (1 : Fin 2) * 3 ≤ (i 1).val
      ∧ (i 1).val < win0_11.index ⟨(i 0).val / 50000, hlt⟩ (1 : Fin 2) * 3 + 3
    omega

/-- So the result array ends as the perceptron on every row of the first window's array. -/
theorem final (c : Dev nD) : (dats m 0 c).arrAt 11 cfg0.N = G m c :=
  (dats m 0 c).arrAt_eq_of_cover 11 (G m c) (fun t _ => flushed_eq m c t) cover

/-- The run, read: the result array at the perceptron on every row, the arguments unchanged. -/
theorem run : θ_run defs (onTc (τ := τ) (main (F := Ideal))) ⟨m, fun _ => 0, ρ⟩ fun r => ∀ c : Dev nD,
      r.2.mem ((c : Thread nD τ).loc main_v137) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (run_blocks m ρ)

end Cert.KernelIdeal.Hand

end
-- ==== Proof.KerHostH0.lean ====
/-
  What the region finds in the array of its first window: the 4000000×7 array whose rows the perceptron is
  applied to. The host computes it from the input and the feature map (the input's three columns beside four
  bilinearly interpolated feature columns) and changes its format, which is the identity on the extended reals.
  The reference computes the same array by the same host operations in the same order, so it is stated here as the
  reference's stage of that name, applied to the kernel's arguments: the two composed terms are the same term,
  whatever the float family they are read at, and the equation holds by unfolding both sides.
-/
import proofs.«130462_j9234179686517_1_alg».proof.Proof.Gen.KernelIdeal.Frame
import proofs.«130462_j9234179686517_1_alg».proof.Proof.RefRead
import Idealize.ShloMosaic.Lib.StableHlo.Run
import Idealize.ShloMosaic.Lib.Pipeline.Regions

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.Pipeline

section
variable {F : FTy → Type} [FloatOps F] (m : (ℓ : Loc nD τ sig) → Buf (Elt F) ℓ)

set_option maxRecDepth 65536 in
/-- At any float family: the first window's array is the change of format of the stage the reference names. The
    two sides are one term once the host operations before the region are applied in order to the launch
    contents and the stages are unfolded, so the equation holds by reflexivity. -/
theorem h0_gen (c : Dev nD) : (V m c main_v126 : FVec F S4000000x7 .bf16)
    = truncf .bf16 (Cert.ReferenceIdeal.Read.val_main_v125 (F := F) (m ((c : Thread nD τ).loc main_arg0)) (m ((c : Thread nD τ).loc main_arg1)) : FVec F S4000000x7 .f32) bitsLt_bf16_f32 := by
  chain_rfl
end

/-- The rows the perceptron is applied to, as the region finds them, on the extended reals. -/
theorem h0_eq (m : (ℓ : Loc nD τ sig) → Buf (Elt Ideal) ℓ) (c : Dev nD) : (V m c main_v126 : S4000000x7.Idx → EReal)
    = Cert.ReferenceIdeal.Read.val_main_v125 (F := Ideal) (m ((c : Thread nD τ).loc main_arg0)) (m ((c : Thread nD τ).loc main_arg1)) :=
  h0_gen m c

end Cert.KernelIdeal.HostVal

end
-- ==== Proof.RefMlp.lean ====
/-
  The reference's last stages are the perceptron on every row of its 4000000×7 array. From that array on, the
  reference multiplies by a weight matrix on the host, adds the bias (a vector made a 1×N row and then broadcast
  along the rows), and takes the maximum with an all-zero array; the last layer has no maximum. The 4000000×7
  array itself (the input's three columns beside four interpolated feature columns) is left as the stage that
  computes it: both programs compute it by the same host operations, so it is never opened.
-/
import proofs.«130462_j9234179686517_1_alg».proof.Proof.RefRead
import proofs.«130462_j9234179686517_1_alg».proof.Proof.MlpSpec

noncomputable section

namespace Cert.ReferenceIdeal.RefValue

open Cert.ReferenceIdeal Cert.ReferenceIdeal.Read Idealize.ShloMosaic Idealize.ShloMosaic.ValueIdx MlpSpec

/-- A vector made a 1×N row and broadcast to M rows, read at an index: the vector's entry in the index's column. -/
theorem bias_apply (M N : Nat) (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (j : (⟨2, ![M, N]⟩ : Shape).Idx) :
    broadcastInDim ⟨2, ![M, N]⟩ ![0, 1] h2 (broadcastInDim ⟨2, ![1, N]⟩ ![1] h1 v) j = bvec v (j 1) := by
  have hj : (j 1).val < N := (j 1).isLt
  refine (broadcastInDim_apply ![0, 1] h2 (broadcastInDim ⟨2, ![1, N]⟩ ![1] h1 v) j (ix2 0 ⟨(j 1).val, hj⟩) (fun a => ?_)).trans
    (broadcastInDim_apply ![1] h1 v (ix2 0 ⟨(j 1).val, hj⟩) (ix1 ⟨(j 1).val, hj⟩) (fun a => ?_))
  · match a with
    | ⟨0, _⟩ => show (0 : Nat) = if (1 : Nat) = 1 then 0 else _; rw [if_pos rfl]
    | ⟨1, _⟩ =>
      show (j 1).val = if N = 1 then 0 else (j 1).val
      by_cases hN : N = 1
      · rw [if_pos hN]; omega
      · rw [if_neg hN]
  · match a with
    | ⟨0, _⟩ =>
      show (j 1).val = if N = 1 then 0 else (j 1).val
      by_cases hN : N = 1
      · rw [if_pos hN]; omega
      · rw [if_neg hN]

/-- One layer as the reference spells it: the host's product plus the broadcast bias vector. -/
theorem layer (M K N : Nat) (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (bv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none x w) (broadcastInDim ⟨2, ![M, N]⟩ ![0, 1] h2 (broadcastInDim ⟨2, ![1, N]⟩ ![1] h1 bv))
      = MlpSpec.linA M w (bvec bv) x :=
  MlpSpec.dot_bias M K N d hd .single x w _ (bvec bv) (fun j => bias_apply M N bv h1 h2 j)

/-- The maximum with the broadcast zero scalar: the positive part. -/
theorem relu (M N : Nat) (y : FVec Ideal ⟨2, ![M, N]⟩ .f32) (h : (⟨0, ![]⟩ : Shape).BroadcastsInDim ⟨2, ![M, N]⟩ ![]) :
    maximumf y (broadcastInDim ⟨2, ![M, N]⟩ ![] h (constant (F := Ideal) ⟨0, ![]⟩ .f32 0x00000000#32)) = MlpSpec.posA M N y :=
  MlpSpec.max_zero M N y _ (fun _ => rfl)

/-- The reference's result stage, as a function of the arguments, is the perceptron on every row of the stage
    that holds the 4000000×7 array. -/
theorem result_eq (x0 : (⟨S4000000x3, .f32⟩ : BufTy).Contents (Elt Ideal)) (x1 : (⟨S4x512x512, .f32⟩ : BufTy).Contents (Elt Ideal))
    (x2 : (⟨S7x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x16, .f32⟩ : BufTy).Contents (Elt Ideal)) (x7 : (⟨S16, .f32⟩ : BufTy).Contents (Elt Ideal))
    (x8 : (⟨S16x16, .f32⟩ : BufTy).Contents (Elt Ideal)) (x9 : (⟨S16, .f32⟩ : BufTy).Contents (Elt Ideal))
    (x10 : (⟨S16x3, .f32⟩ : BufTy).Contents (Elt Ideal)) (x11 : (⟨S3, .f32⟩ : BufTy).Contents (Elt Ideal)) :
    val_main_v149 (F := Ideal) x0 x1 x2 x3 x4 x5 x6 x7 x8 x9 x10 x11
      = MlpSpec.rows x2 (bvec x3) x4 (bvec x5) x6 (bvec x7) x8 (bvec x9) x10 (bvec x11) 4000000 (val_main_v125 (F := Ideal) x0 x1) := by
  rw [← MlpSpec.rows_eq_layers]
  unfold val_main_v149 val_main_v148 val_main_v147 val_main_v146 val_main_v145 val_main_call5_v0 val_main_call5_cst
    val_main_v144 val_main_v143 val_main_v142 val_main_v141 val_main_v140 val_main_call4_v0 val_main_call4_cst
    val_main_v139 val_main_v138 val_main_v137 val_main_v136 val_main_v135 val_main_call3_v0 val_main_call3_cst
    val_main_v134 val_main_v133 val_main_v132 val_main_v131 val_main_v130 val_main_call2_v0 val_main_call2_cst
    val_main_v129 val_main_v128 val_main_v127 val_main_v126
  generalize val_main_v125 (F := Ideal) x0 x1 = h0
  rw [layer 4000000 7 16 dot_S4000000x7_S7x16_S4000000x16_1_0_0_1_n_n rfl, relu,
    layer 4000000 16 16 dot_S4000000x16_S16x16_S4000000x16_1_0_0_1_n_n rfl, relu,
    layer 4000000 16 16 dot_S4000000x16_S16x16_S4000000x16_1_0_0_1_n_n rfl, relu,
    layer 4000000 16 16 dot_S4000000x16_S16x16_S4000000x16_1_0_0_1_n_n rfl, relu,
    layer 4000000 16 3 dot_S4000000x16_S16x3_S4000000x3_1_0_0_1_n_n rfl]

end Cert.ReferenceIdeal.RefValue

end
-- ==== Proof.lean ====
/-
  A five-layer perceptron on 4,000,000 rows: a kernel that works on 80 blocks of 50,000 rows against a reference
  that works on the whole array. Both programs first build the same 4000000×7 array on the host (the input's three
  columns beside four feature columns interpolated from the feature map) by the same operations, then apply to
  each row  h ↦ W5ᵀ·relu(W4ᵀ·relu(W3ᵀ·relu(W2ᵀ·relu(W1ᵀ·h + b1) + b2) + b3) + b4) + b5.
  The kernel changes number formats on the way (the identity on the extended reals), takes each matrix product
  into a zero accumulator, and reads each bias as the row of a 1×N array; the reference uses the host's product and
  broadcasts each bias vector. Entry by entry both are the same sums of the same products, and a row of the result
  depends only on the same row of the input, so the kernel's 80 blocks of rows are the reference's rows. No law
  of arithmetic beyond this is used, and the inputs' finiteness is never needed.
  The frames are the generated ones; the ideal pass rewrote nothing, so there is nothing to preserve.
-/
import proofs.«130462_j9234179686517_1_alg».proof.Defs
import proofs.«130462_j9234179686517_1_alg».proof.Proof.Gen.Kernel
import proofs.«130462_j9234179686517_1_alg».proof.Proof.Gen.Kernel.Skeleton
import proofs.«130462_j9234179686517_1_alg».proof.Proof.Gen.Kernel.Launch
import proofs.«130462_j9234179686517_1_alg».proof.Proof.Gen.Kernel.Points
import proofs.«130462_j9234179686517_1_alg».proof.Proof.Gen.Kernel.Frame
import proofs.«130462_j9234179686517_1_alg».proof.Proof.Gen.KernelIdeal
import proofs.«130462_j9234179686517_1_alg».proof.Proof.Gen.KernelIdeal.Skeleton
import proofs.«130462_j9234179686517_1_alg».proof.Proof.Gen.KernelIdeal.Launch
import proofs.«130462_j9234179686517_1_alg».proof.Proof.Gen.KernelIdeal.Points
import proofs.«130462_j9234179686517_1_alg».proof.Proof.Gen.KernelIdeal.Frame
import proofs.«130462_j9234179686517_1_alg».proof.Proof.Gen.ReferenceIdeal
import proofs.«130462_j9234179686517_1_alg».proof.Proof.Gen.Pre_finite_inputs
import proofs.«130462_j9234179686517_1_alg».proof.Proof.Gen.KernelIdeal.Value
import proofs.«130462_j9234179686517_1_alg».proof.Proof.RefRun
import proofs.«130462_j9234179686517_1_alg».proof.Proof.RefRead
import proofs.«130462_j9234179686517_1_alg».proof.Proof.KerValue
import proofs.«130462_j9234179686517_1_alg».proof.Proof.KerHostH0
import proofs.«130462_j9234179686517_1_alg».proof.Proof.RefMlp
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both result arrays are the perceptron on every row of the same 4000000×7 array: the kernel's by its blocks of
    rows, the reference's by its last stages; the 4000000×7 array is the same function of the agreeing arguments. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v149_eq, Cert.ReferenceIdeal.RefValue.result_eq,
    a0, a1, a2, a3, a4, a5, a6, a7, a8, a9, a10, a11]
  show _ = Cert.KernelIdeal.Hand.G m c
  unfold Cert.KernelIdeal.Hand.G
  rw [Cert.KernelIdeal.HostVal.h0_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
